-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x128 : Shape := ⟨2, ![1600000, 128]⟩
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S1600000x128 : S_.BroadcastsInDim S1600000x128 (![] : Fin 0 → Fin S1600000x128.rank)
  reducesTo_S1600000x128_S_d0_1 : S1600000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v28 : IVec S_ 1) (main_v33 : IVec S1600000 1) : IVec S_ 1 :=
  let main_c_12 : IVec S_ 1 := constantI S_ 1 1#1
  let main_v34 : IVec S_ 1 := (fun x v => Host.reduce IntOp.andi x v reducesTo_S1600000_S_d0 h_S_) main_v33 main_c_12
  let main_v35 : IVec S_ 1 := andi main_v28 main_v34
  main_v35

def fn_part1 {F : FTy → Type} [FloatOps F] (main_arg2 : IVec S1600000 32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 4294867296#32
  let main_v29 : IVec S1600000 32 := broadcastInDim S1600000 ![] bcast_S_S1600000 main_c_10
  let main_v30 : IVec S1600000 1 := cmpi .sge main_arg2 main_v29
  let main_c_11 : IVec S_ 32 := constantI S_ 32 100000#32
  let main_v31 : IVec S1600000 32 := broadcastInDim S1600000 ![] bcast_S_S1600000 main_c_11
  let main_v32 : IVec S1600000 1 := cmpi .slt main_arg2 main_v31
  let main_v33 : IVec S1600000 1 := andi main_v30 main_v32
  fn_part2 (F := F) main_v28 main_v33

def fn {F : FTy → Type} [FloatOps F] (main_arg0 : FVec F S1600000x128 .f32) (main_arg1 : FVec F S100000x64 .f32) (main_arg2 : IVec S1600000 32) (main_arg3 : IVec S1600000 32) (main_arg4 : IVec S1600000 1) (main_arg5 : FVec F S128x64 .f32) (main_arg6 : FVec F S64 .f32) (main_arg7 : FVec F S64x64 .f32) (main_arg8 : FVec F S64 .f32) : IVec S_ 1 :=
  let main_v0 : FVec F S1600000x128 .f32 := Host.absf main_arg0
  let main_cst : FVec F S_ .f32 := constant S_ .f32 0x7F800000#32
  let main_v1 : FVec F S1600000x128 .f32 := broadcastInDim S1600000x128 ![] bcast_S_S1600000x128 main_cst
  let main_v2 : IVec S1600000x128 1 := cmpf .olt main_v0 main_v1
  let main_c : IVec S_ 1 := constantI S_ 1 1#1
  let main_v3 : IVec S_ 1 := (fun x v => Host.reduce IntOp.andi x v reducesTo_S1600000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg7 main_arg8 main_v13 main_v16
-- ==== Kernel.lean ====
abbrev S1600000x128 : Shape := ⟨2, ![1600000, 128]⟩
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S6400x128 : Shape := ⟨2, ![6400, 128]⟩
abbrev S6400x64 : Shape := ⟨2, ![6400, 64]⟩

abbrev nBuf : Space → Nat
  | .hbm => 45
  | .vmem => 10
  | .smem => 0
  | _ => 0

abbrev bufTy : (tb : Table) → Fin (tcTables nBuf tb) → BufTy
  | .hbm, ⟨0, _⟩ => ⟨S1600000x128, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S1600000, .i1⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x64, .f32⟩
  | .hbm, ⟨10, _⟩ => ⟨S1x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1, .i32⟩
  | .hbm, ⟨20, _⟩ => ⟨S_, .i32⟩
  | .hbm, ⟨21, _⟩ => ⟨S1600000x1, .i32⟩
  | .hbm, ⟨22, _⟩ => ⟨S1600000x1, .i1⟩
  | .hbm, ⟨23, _⟩ => ⟨S1x1, .i32⟩
  | .hbm, ⟨24, _⟩ => ⟨S1600000x1, .i32⟩
  | .hbm, ⟨25, _⟩ => ⟨S1600000x1, .i1⟩
  | .hbm, ⟨26, _⟩ => ⟨S1600000x1, .i1⟩
  | .hbm, ⟨27, _⟩ => ⟨S_, .i1⟩
  | .hbm, ⟨28, _⟩ => ⟨S1600000, .i1⟩
  | .hbm, ⟨29, _⟩ => ⟨S1600000x64, .f32⟩
  | .hbm, ⟨30, _⟩ => ⟨S1600000x64, .i1⟩
  | .hbm, ⟨31, _⟩ => ⟨S_, .f32⟩
  | .hbm, ⟨32, _⟩ => ⟨S1600000x64, .f32⟩
  | .hbm, ⟨33, _⟩ => ⟨S1600000x64, .f32⟩
  | .hbm, ⟨34, _⟩ => ⟨S1600000x1, .i1⟩
  | .hbm, ⟨35, _⟩ => ⟨S_, .f32⟩
  | .hbm, ⟨36, _⟩ => ⟨S_, .f32⟩
  | .hbm, ⟨37, _⟩ => ⟨S1600000x64, .i1⟩
  | .hbm, ⟨38, _⟩ => ⟨S1600000x64, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .local _ .vmem, ⟨0, _⟩ => ⟨S6400x128, .f32⟩
  | .local _ .vmem, ⟨1, _⟩ => ⟨S6400x128, .f32⟩
  | .local _ .vmem, ⟨2, _⟩ => ⟨S6400x64, .f32⟩
  | .local _ .vmem, ⟨3, _⟩ => ⟨S6400x64, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S6400x64, .f32⟩
  | .local _ .vmem, ⟨9, _⟩ => ⟨S6400x64, .f32⟩
  | _, _ => ⟨S1600000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_v3 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v4 : Ref sig .tc := ⟨.hbm, 39, rfl⟩
abbrev main_v5 : Ref sig .tc := ⟨.hbm, 40, rfl⟩
abbrev main_cst_0 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  inb_S6400x128_S6400x128_0_0 : ∀ a, (![0, 0] : Fin 2 → Nat) a + S6400x128.size a ≤ S6400x128.size a
  h_S6400x128 : 0 < S6400x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S64x64_S64x64_0_0 : ∀ a, (![0, 0] : Fin 2 → Nat) a + S64x64.size a ≤ S64x64.size a
  h_S64x64 : 0 < S64x64.numel
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  dot_S6400x128_S128x64_S6400x64_1_0_0_1_n_n_wf : DotDims.WF S6400x128 S128x64 S6400x64 [1] [0] [0] [1] [] []
  dot_S6400x64_S64x64_S6400x64_1_0_0_1_n_n_wf : DotDims.WF S6400x64 S64x64 S6400x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x64.size a ≤ S1600000x64.size a
  hwx0_6 : ∀ i : grid0.Coords, EltTy.bits .f32 = 32 ∨ (Rect.block (s := S1600000x64) S6400x64.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S6400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1600000x128 : Shape := ⟨2, ![1600000, 128]⟩
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S1600000x64 : Shape := ⟨2, ![1600000, 64]⟩
abbrev S1x64 : Shape := ⟨2, ![1, 64]⟩
abbrev S_ : Shape := ⟨0, ![]⟩
abbrev S1600000x1 : Shape := ⟨2, ![1600000, 1]⟩

abbrev nBuf : Space → Nat
  | .hbm => 61
  | .vmem => 0
  | .smem => 0
  | _ => 0

abbrev bufTy : (tb : Table) → Fin (tcTables nBuf tb) → BufTy
  | .hbm, ⟨0, _⟩ => ⟨S1600000x128, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S1600000, .i1⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1600000x64, .f32⟩
  | .hbm, ⟨10, _⟩ => ⟨S1x64, .f32⟩
  | .hbm, ⟨11, _⟩ => ⟨S1600000x64, .f32⟩
  | .hbm, ⟨12, _⟩ => ⟨S1600000x64, .f32⟩
  | .hbm, ⟨13, _⟩ => ⟨S_, .f32⟩
  | .hbm, ⟨14, _⟩ => ⟨S1600000x64, .f32⟩
  | .hbm, ⟨15, _⟩ => ⟨S1600000x64, .f32⟩
  | .hbm, ⟨16, _⟩ => ⟨S_, .f32⟩
  | .hbm, ⟨17, _⟩ => ⟨S1600000x64, .f32⟩
  | .hbm, ⟨18, _⟩ => ⟨S1600000x64, .i1⟩
  | .hbm, ⟨19, _⟩ => ⟨S_, .f32⟩
  | .hbm, ⟨20, _⟩ => ⟨S1600000x64, .f32⟩
  | .hbm, ⟨21, _⟩ => ⟨S1600000x64, .f32⟩
  | .hbm, ⟨22, _⟩ => ⟨S1600000x64, .f32⟩
  | .hbm, ⟨23, _⟩ => ⟨S1600000x64, .f32⟩
  | .hbm, ⟨24, _⟩ => ⟨S1600000x64, .i1⟩
  | .hbm, ⟨25, _⟩ => ⟨S1600000x64, .f32⟩
  | .hbm, ⟨26, _⟩ => ⟨S1600000x64, .f32⟩
  | .hbm, ⟨27, _⟩ => ⟨S1600000x64, .f32⟩
  | .hbm, ⟨28, _⟩ => ⟨S1600000x64, .f32⟩
  | .hbm, ⟨29, _⟩ => ⟨S1600000x64, .f32⟩
  | .hbm, ⟨30, _⟩ => ⟨S1600000x64, .f32⟩
  | .hbm, ⟨31, _⟩ => ⟨S1600000x64, .f32⟩
  | .hbm, ⟨32, _⟩ => ⟨S1600000x64, .f32⟩
  | .hbm, ⟨33, _⟩ => ⟨S_, .f32⟩
  | .hbm, ⟨34, _⟩ => ⟨S1600000x64, .f32⟩
  | .hbm, ⟨35, _⟩ => ⟨S1600000x64, .f32⟩
  | .hbm, ⟨36, _⟩ => ⟨S1600000x64, .f32⟩
  | .hbm, ⟨37, _⟩ => ⟨S1600000x64, .f32⟩
  | .hbm, ⟨38, _⟩ => ⟨S1x64, .f32⟩
  | .hbm, ⟨39, _⟩ => ⟨S1600000x64, .f32⟩
  | .hbm, ⟨40, _⟩ => ⟨S1600000x64, .f32⟩
  | .hbm, ⟨41, _⟩ => ⟨S1600000x1, .i1⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S_, .f32⟩
  | .hbm, ⟨54, _⟩ => ⟨S1600000x64, .i1⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | _, _ => ⟨S1600000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S1600000x128_S128x64_S1600000x64_1_0_0_1_n_n_wf : DotDims.WF S1600000x128 S128x64 S1600000x64 [1] [0] [0] [1] [] []
  dot_S1600000x64_S64x64_S1600000x64_1_0_0_1_n_n_wf : DotDims.WF S1600000x64 S64x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.SrcRange.lean ====
/-
  The precondition's last conjunct, read back.

  `finite_inputs` ends in `jnp.all((src >= -100000) & (src < 100000))`, printed as an `and`-reduction of the two
  word comparisons over all 1 600 000 entries, conjoined with the finiteness tests. The predicate being one therefore
  gives, at every entry `e`, `−100000 ≤ src[e]` and `src[e] < 100000` as signed 32-bit words (the constant
  `−100000` is the word 4294867296).
-/
import proofs.«414583_j34093450396366_2_alg».proof.Pre_finite_inputs
import proofs.«414583_j34093450396366_2_alg».proof.Proof.Gen.Pre_finite_inputs
import Idealize.ShloMosaic.Lib.Affine
import Idealize.ShloMosaic.Lib.ReduceAll
import Idealize.ShloMosaic.Lib.ValueIdx

noncomputable section

namespace Cert.SrcRange

open Cert.Pre_finite_inputs Idealize.ShloMosaic Idealize.ShloMosaic.ValueIdx

/-- The scalar shape has one index. -/
instance : Subsingleton S_.Idx := ⟨fun _ _ => funext fun d => d.elim0⟩

/-- Where the printed precondition holds, every `src` word lies in `[−100000, 100000)`. -/
theorem src_range {F : FTy → Type} [FloatOps F] (a0 : FVec F S1600000x128 .f32) (a1 : FVec F S100000x64 .f32) (a2 a3 : IVec S1600000 32)
    (a4 : IVec S1600000 1) (a5 : FVec F S128x64 .f32) (a6 : FVec F S64 .f32) (a7 : FVec F S64x64 .f32) (a8 : FVec F S64 .f32)
    (h : fn (F := F) a0 a1 a2 a3 a4 a5 a6 a7 a8 = fun _ => 1#1) (e : S1600000.Idx) :
    IntOp.andi (IntOp.cmpi .sge (a2 e) 4294867296#32) (IntOp.cmpi .slt (a2 e) 100000#32) = 1#1 := by
  have h0 := congrFun h ix0
  dsimp only [fn, fn_part1, fn_part2] at h0
  have h1 : IntOp.andi _ _ = 1#1 := h0
  obtain ⟨-, hall⟩ := IntOp.andi_eq_one.1 h1
  exact Host.reduce_andi_all _ _ _ _ ix0 hall e

end Cert.SrcRange

end
-- ==== Proof.EdgeFilter.lean ====
/-
  The edge filter of one edge, as a function of that edge's radial-basis row.

  Both programs compute, for an edge with basis row `x ∈ ℝ¹²⁸`,
      h = softplus(x · W₁ + b₁) · W₂ + b₂   ∈ ℝ⁶⁴,
  where softplus has β = 1/2 and threshold 14:  softplus(z) = z when z/2 > 14, and otherwise
  2 · logaddexp(0, z/2) = 2 · (max(0, z/2) + log1p(exp(−|0 − z/2|))).
  Over the extended reals a change of float format is the identity, so the kernel's bf16 operands are the
  f32 ones and its two matrix products are the plain sums below.

  The two programs spell the inner `logaddexp` slightly differently: the host negates `|·|` with a negation
  and tests `d ≠ d` with the unordered predicate; the kernel subtracts from zero and uses the ordered one.
  On extended reals `0 − y = −y` and both predicates are `d ≠ d`, so the two spellings are one function
  (`softplusK_eq`).
-/
import Idealize.ShloMosaic.PureOps.Ideal
import Idealize.ShloMosaic.PureOps.Ideal.Laws
import Idealize.ShloMosaic.Lib.ValueIdx

noncomputable section

open scoped BigOperators

namespace Cert.EdgeFilter

open Idealize.ShloMosaic Idealize.ShloMosaic.ValueIdx

/-- The float zero, one half, fourteen and two, as the words both programs carry. -/
abbrev zeroW : EReal := Ideal.ofBits .f32 0x00000000#32
abbrev halfW : EReal := Ideal.ofBits .f32 0x3F000000#32
abbrev c14W : EReal := Ideal.ofBits .f32 0x41600000#32
abbrev twoW : EReal := Ideal.ofBits .f32 0x40000000#32

/-- softplus (β = 1/2, threshold 14) of one extended real, in the host program's spelling. -/
def softplus (z : EReal) : EReal :=
  Scalar.select (Ideal.cmp .ogt (halfW * z) c14W) z
    (twoW * Scalar.select (Ideal.cmp .une (zeroW - halfW * z) (zeroW - halfW * z)) (zeroW + halfW * z)
      (max zeroW (halfW * z) + Ideal.log1p (Ideal.exp (-(max (zeroW - halfW * z) (-(zeroW - halfW * z)))))))

/-- The same in the kernel's spelling: the negation as a subtraction from zero, the self-comparison ordered. -/
def softplusK (z : EReal) : EReal :=
  Scalar.select (Ideal.cmp .ogt (halfW * z) c14W) z
    (twoW * Scalar.select (Ideal.cmp .one (zeroW - halfW * z) (zeroW - halfW * z)) (zeroW + halfW * z)
      (max zeroW (halfW * z) + Ideal.log1p (Ideal.exp (zeroW - (max (zeroW - halfW * z) (-(zeroW - halfW * z)))))))

/-- The two spellings are one function: `0 − y = −y`, and the ordered and the unordered `≠` are the same test. -/
theorem softplusK_eq (z : EReal) : softplusK z = softplus z := by
  unfold softplusK softplus
  have hz : ∀ y : EReal, zeroW - y = -y := fun y => by
    show Ideal.ofBits .f32 0x00000000#32 - y = -y
    rw [Ideal.ofBits_zero_f32, zero_sub]
  rw [hz (max (zeroW - halfW * z) (-(zeroW - halfW * z)))]
  rfl

/-- The first layer at hidden unit `k`: the row against column `k` of `W₁`, plus the bias. -/
def lin1 (row : Fin 128 → EReal) (W1 : (⟨2, ![128, 64]⟩ : Shape).Idx → EReal) (b1 : Fin 64 → EReal) (k : Fin 64) : EReal :=
  (∑ l : Fin 128, row l * W1 (ix2 l k)) + b1 k

/-- The second layer at output unit `j`. -/
def lin2 (a : Fin 64 → EReal) (W2 : (⟨2, ![64, 64]⟩ : Shape).Idx → EReal) (b2 : Fin 64 → EReal) (j : Fin 64) : EReal :=
  (∑ k : Fin 64, a k * W2 (ix2 k j)) + b2 j

/-- The edge filter at output unit `j`: `softplus(row · W₁ + b₁) · W₂ + b₂`. -/
def filter (row : Fin 128 → EReal) (W1 : (⟨2, ![128, 64]⟩ : Shape).Idx → EReal) (b1 : Fin 64 → EReal)
    (W2 : (⟨2, ![64, 64]⟩ : Shape).Idx → EReal) (b2 : Fin 64 → EReal) (j : Fin 64) : EReal :=
  lin2 (fun k => softplus (lin1 row W1 b1 k)) W2 b2 j

/-- Masking one factor of a product masks the product: `0 · h = 0` for every extended real `h`, infinities
    included, so no finiteness is needed to move the edge mask across the multiplication. -/
theorem select_mul (c : BitVec 1) (g h : EReal) :
    Scalar.select c g zeroW * h = Scalar.select c (g * h) zeroW := by
  have h0 : zeroW = 0 := Ideal.ofBits_zero_f32
  rcases BitVec.eq_zero_or_eq_one c with hc | hc
  · subst hc; rw [select_zero, select_zero, h0, zero_mul]
  · subst hc; rw [select_one, select_one]

end Cert.EdgeFilter

end
-- ==== Proof.KernelPayload.lean ====
/-
  What the kernel body computes for one tile of 6400 edges, read at one element.

  The body multiplies the tile of masked gathered node features by the edge filter of the tile's basis rows:
  entry `(p, q)` of the stored block is `gathered(p, q) · filter(row p)(q)`. The filter is the two-layer
  perceptron of `EdgeFilter.lean`: the body's two matrix products into zero accumulators are the plain sums
  over the contracted axis (the bf16 narrowing of their operands is the identity on extended reals), each
  bias is one row broadcast down the tile, and the pointwise chain between the products is `softplusK`.
-/
import proofs.«414583_j34093450396366_2_alg».proof.Proof.Gen.KernelIdeal.Skeleton
import proofs.«414583_j34093450396366_2_alg».proof.Proof.EdgeFilter
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.EdgeFilter

/-! ## The two products' operand indices, axis by axis -/

theorem lhs1_0 (i : S6400x64.Idx) (q : dot_S6400x128_S128x64_S6400x64_1_0_0_1_n_n.contr.Idx) :
    (dot_S6400x128_S128x64_S6400x64_1_0_0_1_n_n.lhsIdx i q 0).val = (i 0).val := by
  unfold DotDims.lhsIdx
  rw [dif_neg (show ¬(0 : Fin S6400x128.rank) ∈ dot_S6400x128_S128x64_S6400x64_1_0_0_1_n_n.lhsBatch by decide), dif_pos (show (0 : Fin S6400x128.rank) ∈ dot_S6400x128_S128x64_S6400x64_1_0_0_1_n_n.lhsNonContracting by decide)]
  rfl
theorem lhs1_1 (i : S6400x64.Idx) (q : dot_S6400x128_S128x64_S6400x64_1_0_0_1_n_n.contr.Idx) :
    (dot_S6400x128_S128x64_S6400x64_1_0_0_1_n_n.lhsIdx i q 1).val = (q ⟨0, by decide⟩).val :=
  dot_S6400x128_S128x64_S6400x64_1_0_0_1_n_n.lhsIdx_val_of_single rfl i q
theorem rhs1_0 (i : S6400x64.Idx) (q : dot_S6400x128_S128x64_S6400x64_1_0_0_1_n_n.contr.Idx) :
    (dot_S6400x128_S128x64_S6400x64_1_0_0_1_n_n.rhsIdx i q 0).val = (q ⟨0, by decide⟩).val :=
  dot_S6400x128_S128x64_S6400x64_1_0_0_1_n_n.rhsIdx_val_of_single rfl i q
theorem rhs1_1 (i : S6400x64.Idx) (q : dot_S6400x128_S128x64_S6400x64_1_0_0_1_n_n.contr.Idx) :
    (dot_S6400x128_S128x64_S6400x64_1_0_0_1_n_n.rhsIdx i q 1).val = (i 1).val := by
  unfold DotDims.rhsIdx
  rw [dif_neg (show ¬(1 : Fin S128x64.rank) ∈ dot_S6400x128_S128x64_S6400x64_1_0_0_1_n_n.rhsBatch by decide), dif_pos (show (1 : Fin S128x64.rank) ∈ dot_S6400x128_S128x64_S6400x64_1_0_0_1_n_n.rhsNonContracting by decide)]
  rfl

theorem lhs2_0 (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide), dif_pos (show (0 : Fin S6400x64.rank) ∈ dot_S6400x64_S64x64_S6400x64_1_0_0_1_n_n.lhsNonContracting by decide)]
  rfl
theorem lhs2_1 (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q
theorem rhs2_0 (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q
theorem rhs2_1 (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide), dif_pos (show (1 : Fin S64x64.rank) ∈ dot_S6400x64_S64x64_S6400x64_1_0_0_1_n_n.rhsNonContracting by decide)]
  rfl

/-! ## The two products as sums -/

/-- The first product at `(p, q)`: row `p` of the tile against column `q` of `W₁`. -/
theorem matmul1_at (a : FVec Ideal S6400x128 .bf16) (b : FVec Ideal S128x64 .bf16) (p : Fin 6400) (q : Fin 64) :
    matmul dot_S6400x128_S128x64_S6400x64_1_0_0_1_n_n none a b (constant (F := Ideal) S6400x64 .f32 0x00000000#32) (ix2 p q)
      = ∑ l : Fin 128, a (ix2 p l) * b (ix2 l q) := by
  simp only [matmul]
  rw [Ideal.matmul_constant_zero_apply, ← Equiv.sum_comp (ValueIdx.contrEquiv1 dot_S6400x128_S128x64_S6400x64_1_0_0_1_n_n 128 rfl rfl).symm]
  refine Finset.sum_congr rfl fun l _ => ?_
  have hl := ValueIdx.contrEquiv1_symm_val dot_S6400x128_S128x64_S6400x64_1_0_0_1_n_n 128 rfl rfl l
  have el : dot_S6400x128_S128x64_S6400x64_1_0_0_1_n_n.lhsIdx (ix2 p q) ((ValueIdx.contrEquiv1 dot_S6400x128_S128x64_S6400x64_1_0_0_1_n_n 128 rfl rfl).symm l) = ix2 p l := funext fun ax => Fin.ext (by
    match ax with
    | ⟨0, _⟩ => exact lhs1_0 _ _
    | ⟨1, _⟩ => exact (lhs1_1 _ _).trans hl)
  have er : dot_S6400x128_S128x64_S6400x64_1_0_0_1_n_n.rhsIdx (ix2 p q) ((ValueIdx.contrEquiv1 dot_S6400x128_S128x64_S6400x64_1_0_0_1_n_n 128 rfl rfl).symm l) = ix2 l q := funext fun ax => Fin.ext (by
    match ax with
    | ⟨0, _⟩ => exact (rhs1_0 _ _).trans hl
    | ⟨1, _⟩ => exact rhs1_1 _ _)
  rw [el, er]

/-- The second product at `(p, q)`: row `p` of the activations against column `q` of `W₂`. -/
theorem matmul2_at (a : FVec Ideal S6400x64 .bf16) (b : FVec Ideal S64x64 .bf16) (p : Fin 6400) (q : Fin 64) :
    matmul dot_S6400x64_S64x64_S6400x64_1_0_0_1_n_n none a b (constant (F := Ideal) S6400x64 .f32 0x00000000#32) (ix2 p q)
      = ∑ l : Fin 64, a (ix2 p l) * b (ix2 l q) := by
  simp only [matmul]
  rw [Ideal.matmul_constant_zero_apply, ← Equiv.sum_comp (ValueIdx.contrEquiv1 dot_S6400x64_S64x64_S6400x64_1_0_0_1_n_n 64 rfl rfl).symm]
  refine Finset.sum_congr rfl fun l _ => ?_
  have hl := ValueIdx.contrEquiv1_symm_val dot_S6400x64_S64x64_S6400x64_1_0_0_1_n_n 64 rfl rfl l
  have el : dot_S6400x64_S64x64_S6400x64_1_0_0_1_n_n.lhsIdx (ix2 p q) ((ValueIdx.contrEquiv1 dot_S6400x64_S64x64_S6400x64_1_0_0_1_n_n 64 rfl rfl).symm l) = ix2 p l := funext fun ax => Fin.ext (by
    match ax with
    | ⟨0, _⟩ => exact lhs2_0 _ _
    | ⟨1, _⟩ => exact (lhs2_1 _ _).trans hl)
  have er : dot_S6400x64_S64x64_S6400x64_1_0_0_1_n_n.rhsIdx (ix2 p q) ((ValueIdx.contrEquiv1 dot_S6400x64_S64x64_S6400x64_1_0_0_1_n_n 64 rfl rfl).symm l) = ix2 l q := funext fun ax => Fin.ext (by
    match ax with
    | ⟨0, _⟩ => exact (rhs2_0 _ _).trans hl
    | ⟨1, _⟩ => exact rhs2_1 _ _)
  rw [el, er]

/-! ## The layers -/

/-- The first layer over the tile: the product plus the bias row broadcast down the tile. -/
def layer1 (v0 : Vec Ideal S6400x128 .f32) (v2 : Vec Ideal S128x64 .f32) (v5 : Vec Ideal S1x64 .f32) : FVec Ideal S6400x64 .f32 :=
  addf (matmul dot_S6400x128_S128x64_S6400x64_1_0_0_1_n_n none (truncf .bf16 v0 bitsLt_bf16_f32) (truncf .bf16 v2 bitsLt_bf16_f32) (constant S6400x64 .f32 0x00000000#32))
    (broadcastTo S6400x64 (shapeCast S1x64 v5 shapeCasts_S1x64_S1x64) broadcasts_S1x64_S6400x64)

/-- At `(p, k)` it is `lin1` of row `p`. -/
theorem layer1_at (v0 : Vec Ideal S6400x128 .f32) (v2 : Vec Ideal S128x64 .f32) (v5 : Vec Ideal S1x64 .f32) (p : Fin 6400) (k : Fin 64) :
    layer1 v0 v2 v5 (ix2 p k) = lin1 (fun l => v0 (ix2 p l)) v2 (fun k => v5 (ix2 (0 : Fin 1) k)) k := by
  unfold layer1
  rw [addf_apply, matmul1_at, shapeCast_self, broadcastTo_1b_ab_apply]
  rfl

/-- The pointwise chain between the two products, over the tile. -/
def activation (v8 : FVec Ideal S6400x64 .f32) : FVec Ideal S6400x64 .f32 :=
  select (cmpf .ogt (mulf (broadcast S6400x64 (Scalar.ofBits .f32 0x3F000000#32)) v8) (broadcast S6400x64 (Scalar.ofBits .f32 0x41600000#32))) v8
    (mulf (broadcast S6400x64 (Scalar.ofBits .f32 0x40000000#32))
      (select (cmpf .one (subf (broadcast S6400x64 (Scalar.ofBits .f32 0x00000000#32)) (mulf (broadcast S6400x64 (Scalar.ofBits .f32 0x3F000000#32)) v8))
                         (subf (broadcast S6400x64 (Scalar.ofBits .f32 0x00000000#32)) (mulf (broadcast S6400x64 (Scalar.ofBits .f32 0x3F000000#32)) v8)))
        (addf (broadcast S6400x64 (Scalar.ofBits .f32 0x00000000#32)) (mulf (broadcast S6400x64 (Scalar.ofBits .f32 0x3F000000#32)) v8))
        (addf (maximumf (broadcast S6400x64 (Scalar.ofBits .f32 0x00000000#32)) (mulf (broadcast S6400x64 (Scalar.ofBits .f32 0x3F000000#32)) v8))
          (log1p (exp (subf (broadcast S6400x64 (Scalar.ofBits .f32 0x00000000#32))
            (absf (subf (broadcast S6400x64 (Scalar.ofBits .f32 0x00000000#32)) (mulf (broadcast S6400x64 (Scalar.ofBits .f32 0x3F000000#32)) v8)))))))))

/-- Element by element it is `softplusK`. -/
theorem activation_at (v8 : FVec Ideal S6400x64 .f32) (i : S6400x64.Idx) : activation v8 i = softplusK (v8 i) := rfl

/-- The body's filter payload is the second layer over the activations of the first. -/
theorem pay2_eq (v0 : Vec Ideal S6400x128 .f32) (v2 : Vec Ideal S128x64 .f32) (v5 : Vec Ideal S1x64 .f32) (v31 : Vec Ideal S64x64 .f32) (v34 : Vec Ideal S1x64 .f32) :
    k0_pay2 (F := Ideal) v0 v2 v5 v31 v34
      = addf (matmul dot_S6400x64_S64x64_S6400x64_1_0_0_1_n_n none (truncf .bf16 (activation (layer1 v0 v2 v5)) bitsLt_bf16_f32) (truncf .bf16 v31 bitsLt_bf16_f32) (constant S6400x64 .f32 0x00000000#32))
          (broadcastTo S6400x64 (shapeCast S1x64 v34 shapeCasts_S1x64_S1x64) broadcasts_S1x64_S6400x64) := rfl

/-- THE FILTER PAYLOAD AT `(p, q)`: the edge filter of row `p` of the basis tile, at output unit `q`. -/
theorem pay2_at (v0 : Vec Ideal S6400x128 .f32) (v2 : Vec Ideal S128x64 .f32) (v5 : Vec Ideal S1x64 .f32) (v31 : Vec Ideal S64x64 .f32) (v34 : Vec Ideal S1x64 .f32)
    (p : Fin 6400) (q : Fin 64) :
    k0_pay2 (F := Ideal) v0 v2 v5 v31 v34 (ix2 p q)
      = filter (fun l => v0 (ix2 p l)) v2 (fun k => v5 (ix2 (0 : Fin 1) k)) v31 (fun k => v34 (ix2 (0 : Fin 1) k)) q := by
  rw [pay2_eq, addf_apply, matmul2_at, shapeCast_self, broadcastTo_1b_ab_apply]
  unfold filter lin2
  refine congrArg (· + v34 (ix2 (0 : Fin 1) q)) (Finset.sum_congr rfl fun k _ => ?_)
  show activation (layer1 v0 v2 v5) (ix2 p k) * v31 (ix2 k q) = _
  rw [activation_at, softplusK_eq, layer1_at]

/-- THE STORED BLOCK AT `(p, q)`: the gathered tile's entry times the filter. -/
theorem pay1_at (v0 : Vec Ideal S6400x128 .f32) (v1 : Vec Ideal S6400x64 .f32) (v2 : Vec Ideal S128x64 .f32) (v5 : Vec Ideal S1x64 .f32) (v31 : Vec Ideal S64x64 .f32) (v34 : Vec Ideal S1x64 .f32)
    (p : Fin 6400) (q : Fin 64) :
    k0_pay1 (F := Ideal) (k0_pay2 v0 v2 v5 v31 v34) (k0_pay3 v1) (ix2 p q)
      = v1 (ix2 p q) * filter (fun l => v0 (ix2 p l)) v2 (fun k => v5 (ix2 (0 : Fin 1) k)) v31 (fun k => v34 (ix2 (0 : Fin 1) k)) q := by
  show mulf (k0_pay3 v1) (k0_pay2 v0 v2 v5 v31 v34) (ix2 p q) = _
  rw [mulf_apply, pay2_at]
  unfold k0_pay3
  rw [shapeCast_self]

end Cert.KernelIdeal.Payload

end
-- ==== Proof.KernelArray.lean ====
/-
  The message array after the kernel's one region, as one function of the arrays the region finds.

  The region walks the 1 600 000 edges in 250 tiles of 6400. At tile `t` it stages rows `6400·t … 6400·t + 6399` of the
  basis array and of the masked gathered array, the two weight matrices and the two bias rows whole, and writes back
  rows `6400·t …` of the message array. By `KernelPayload.lean` the stored entry `(p, q)` is the gathered entry times
  the edge filter of basis row `p` — so the block is the restriction of ONE whole-array function `msg` to the tile's
  rows, and since the 250 tiles cover every row, the array ends holding `msg`.
-/
import proofs.«414583_j34093450396366_2_alg».proof.Proof.Gen.KernelIdeal.Frame
import proofs.«414583_j34093450396366_2_alg».proof.Proof.KernelPayload
import Idealize.ShloMosaic.Lib.Pipeline.Value

set_option maxRecDepth 16384

noncomputable section

open scoped BigOperators

namespace Cert.KernelIdeal.ArrayValue

open Cert.KernelIdeal Cert.KernelIdeal.Gen Cert.KernelIdeal.Payload Idealize.ShloMosaic Idealize.ShloMosaic.TcCoe Idealize.SL.Sem
open Idealize.ShloMosaic.ValueIdx Cert.EdgeFilter
open Idealize.ShloMosaic.Pipeline (Dat)

variable (m : (ℓ : Loc nD τ sig) → Buf (Elt Ideal) ℓ)

/-- The message of every edge: entry `(e, j)` is the masked gathered feature times the edge filter of basis row `e`. -/
def msg (A0 : S1600000x128.Idx → EReal) (A1 : S1600000x64.Idx → EReal) (A2 : S128x64.Idx → EReal) (A3 : S1x64.Idx → EReal)
    (A4 : S64x64.Idx → EReal) (A5 : S1x64.Idx → EReal) : S1600000x64.Idx → EReal :=
  fun i => A1 i * filter (fun l => A0 (ix2 (i 0) l)) A2 (fun k => A3 (ix2 (0 : Fin 1) k)) A4 (fun k => A5 (ix2 (0 : Fin 1) k)) (i 1)

theorem zero_offsets : (![0, 0] : Fin 2 → Nat) = fun _ => 0 := funext fun a => by fin_cases a <;> rfl

/-- A stored block entry is `msg` at the array index it lands on, once each staged block is known to be the matching
    rows of its array: the tile's basis rows and gathered rows move with the output rows, the other four are whole. -/
theorem block_entry (A0 : S1600000x128.Idx → EReal) (A1 : S1600000x64.Idx → EReal) (A2 : S128x64.Idx → EReal) (A3 : S1x64.Idx → EReal)
    (A4 : S64x64.Idx → EReal) (A5 : S1x64.Idx → EReal)
    (x0 : Vec Ideal S6400x128 .f32) (x1 : Vec Ideal S6400x64 .f32) (x2 : Vec Ideal S128x64 .f32) (x3 : Vec Ideal S1x64 .f32)
    (x4 : Vec Ideal S64x64 .f32) (x5 : Vec Ideal S1x64 .f32) (y : S6400x64.Idx) (e : Fin 1600000) (j : Fin 64)
    (h0 : ∀ l : Fin 128, x0 (ix2 (y 0) l) = A0 (ix2 e l)) (h1 : x1 y = A1 (ix2 e j)) (hj : y 1 = j)
    (h2 : x2 = A2) (h3 : x3 = A3) (h4 : x4 = A4) (h5 : x5 = A5) :
    k0_pay1 (F := Ideal) (k0_pay2 x0 x2 x3 x4 x5) (k0_pay3 x1) y = msg A0 A1 A2 A3 A4 A5 (ix2 e j) := by
  obtain ⟨p, q, rfl⟩ : ∃ (p : Fin 6400) (q : Fin 64), y = ix2 p q := ⟨y 0, y 1, eq_ix2 y⟩
  have hq : q = j := hj
  subst hq
  have h0' : (fun l : Fin 128 => x0 (ix2 p l)) = fun l => A0 (ix2 e l) := funext h0
  rw [pay1_at, h1, h2, h3, h4, h5, h0']
  rfl

/-- The printed index maps, decided over the 250 grid points: the basis tile, the gathered tile and the output tile
    all sit at row block `t`, column block 0; the weights and biases at block (0, 0). -/
theorem index_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- WHAT TILE `t` WRITES BACK is block `t` of `msg` of the arrays as the region finds them. -/
theorem flushed_eq (c : Dev nD) (t : Fin cfg0.N) :
    (dats m 0 c).flushed 6 t = ((cfg0.win 6).blk t).view.read (Elt Ideal)
      (msg (V m c main_arg0) (V m c main_v4) (V m c main_arg5) (V m c main_v0) (V m c main_arg7) (V m c main_v1)) := by
  show (cfg0.win 6).cut (grid0.coords t) ((dats m 0 c).after 6 t) = _
  rw [after0_6]
  unfold out0_6
  rw [View.canon_unit_zero zero_offsets]
  simp only [View.ld_unit_zero (S := S6400x128) zero_offsets, View.ld_unit_zero (S := S6400x64) zero_offsets,
    View.ld_unit_zero (S := S128x64) zero_offsets, View.ld_unit_zero (S := S1x64) zero_offsets,
    View.ld_unit_zero (S := S64x64) zero_offsets]
  obtain ⟨f60, f61, f00, f01, f10, f11, f20, f21, f30, f31, f40, f41, f50, f51⟩ := index_facts t
  have ht : t.val < 250 := t.isLt
  funext y
  have hy0 : (y 0).val < 6400 := (y 0).isLt
  have hy1 : (y 1).val < 64 := (y 1).isLt
  have hrow : 6400 * t.val + (y 0).val < 1600000 := by omega
  have hemb : ((cfg0.win 6).blk t).view.emb y = ix2 (⟨6400 * t.val + (y 0).val, hrow⟩ : Fin 1600000) (⟨(y 1).val, hy1⟩ : Fin 64) := by
    funext a; apply Fin.ext
    match a with
    | ⟨0, _⟩ => show win0_6.index t (0 : Fin 2) * 6400 + 1 * (y 0).val = 6400 * t.val + (y 0).val; omega
    | ⟨1, _⟩ => show win0_6.index t (1 : Fin 2) * 64 + 1 * (y 1).val = (y 1).val; omega
  show k0_pay1 (F := Ideal) (k0_pay2 (iblk m c 0 t) (iblk m c 2 t) (iblk m c 3 t) (iblk m c 4 t) (iblk m c 5 t)) (k0_pay3 (iblk m c 1 t)) y
      = msg (V m c main_arg0) (V m c main_v4) (V m c main_arg5) (V m c main_v0) (V m c main_arg7) (V m c main_v1) (((cfg0.win 6).blk t).view.emb y)
  rw [hemb]
  refine block_entry (V m c main_arg0) (V m c main_v4) (V m c main_arg5) (V m c main_v0) (V m c main_arg7) (V m c main_v1)
    (iblk m c 0 t) (iblk m c 1 t) (iblk m c 2 t) (iblk m c 3 t) (iblk m c 4 t) (iblk m c 5 t) y _ _ ?_ ?_ rfl ?_ ?_ ?_ ?_
  · intro l
    show V m c main_arg0 (((cfg0.win 0).blk t).view.emb (ix2 (y 0) l)) = V m c main_arg0 (ix2 _ l)
    refine congrArg _ (funext fun a => Fin.ext ?_)
    match a with
    | ⟨0, _⟩ => show win0_0.index t (0 : Fin 2) * 6400 + 1 * (y 0).val = 6400 * t.val + (y 0).val; omega
    | ⟨1, _⟩ => show win0_0.index t (1 : Fin 2) * 128 + 1 * l.val = l.val; omega
  · show V m c main_v4 (((cfg0.win 1).blk t).view.emb y) = V m c main_v4 (ix2 _ _)
    refine congrArg _ (funext fun a => Fin.ext ?_)
    match a with
    | ⟨0, _⟩ => show win0_1.index t (0 : Fin 2) * 6400 + 1 * (y 0).val = 6400 * t.val + (y 0).val; omega
    | ⟨1, _⟩ => show win0_1.index t (1 : Fin 2) * 64 + 1 * (y 1).val = (y 1).val; omega
  · funext z
    show V m c main_arg5 (((cfg0.win 2).blk t).view.emb z) = V m c main_arg5 z
    refine congrArg _ (funext fun a => Fin.ext ?_)
    match a with
    | ⟨0, _⟩ => show win0_2.index t (0 : Fin 2) * 128 + 1 * (z 0).val = (z 0).val; omega
    | ⟨1, _⟩ => show win0_2.index t (1 : Fin 2) * 64 + 1 * (z 1).val = (z 1).val; omega
  · funext z
    show V m c main_v0 (((cfg0.win 3).blk t).view.emb z) = V m c main_v0 z
    refine congrArg _ (funext fun a => Fin.ext ?_)
    match a with
    | ⟨0, _⟩ => show win0_3.index t (0 : Fin 2) * 1 + 1 * (z 0).val = (z 0).val; omega
    | ⟨1, _⟩ => show win0_3.index t (1 : Fin 2) * 64 + 1 * (z 1).val = (z 1).val; omega
  · funext z
    show V m c main_arg7 (((cfg0.win 4).blk t).view.emb z) = V m c main_arg7 z
    refine congrArg _ (funext fun a => Fin.ext ?_)
    match a with
    | ⟨0, _⟩ => show win0_4.index t (0 : Fin 2) * 64 + 1 * (z 0).val = (z 0).val; omega
    | ⟨1, _⟩ => show win0_4.index t (1 : Fin 2) * 64 + 1 * (z 1).val = (z 1).val; omega
  · funext z
    show V m c main_v1 (((cfg0.win 5).blk t).view.emb z) = V m c main_v1 z
    refine congrArg _ (funext fun a => Fin.ext ?_)
    match a with
    | ⟨0, _⟩ => show win0_5.index t (0 : Fin 2) * 1 + 1 * (z 0).val = (z 0).val; omega
    | ⟨1, _⟩ => show win0_5.index t (1 : Fin 2) * 64 + 1 * (z 1).val = (z 1).val; omega

/-- An index of the message array is in tile `t`'s block iff each coordinate is in the block's range on its axis. -/
theorem mem_blk (t : Fin cfg0.N) (i : S1600000x64.Idx) :
    i ∈ ((cfg0.win 6).blk t).view.set ↔ ∀ a : Fin 2, win0_6.index t a * S6400x64.size a ≤ (i a).val ∧ (i a).val < win0_6.index t a * S6400x64.size a + S6400x64.size a := by
  show i ∈ ((View.whole main_v5).slice (win0_6.rect t)).set ↔ _
  rw [View.set_slice_whole, Rect.mem_set_unit]
  exact Iff.rfl

/-- Every row belongs to the tile `row / 6400`. -/
theorem cover (i : S1600000x64.Idx) : ∃ t : Fin cfg0.N, (cfg0.win 6).flush t = true ∧ i ∈ ((cfg0.win 6).blk t).view.set := by
  have hi0 : (i 0).val < 1600000 := (i 0).isLt
  have hi1 : (i 1).val < 64 := (i 1).isLt
  have hN : cfg0.N = 250 := N_0
  let t : Fin cfg0.N := ⟨(i 0).val / 6400, by rw [hN]; omega⟩
  obtain ⟨f60, f61, -⟩ := index_facts t
  have htv : t.val = (i 0).val / 6400 := rfl
  refine ⟨t, flush0_6 t, ?_⟩
  rw [mem_blk]
  intro a
  match a with
  | ⟨0, _⟩ => show win0_6.index t (0 : Fin 2) * 6400 ≤ (i 0).val ∧ (i 0).val < win0_6.index t (0 : Fin 2) * 6400 + 6400; omega
  | ⟨1, _⟩ => show win0_6.index t (1 : Fin 2) * 64 ≤ (i 1).val ∧ (i 1).val < win0_6.index t (1 : Fin 2) * 64 + 64; omega

/-- THE MESSAGE ARRAY after the region. -/
theorem final (c : Dev nD) : (dats m 0 c).arrAt 6 cfg0.N
    = msg (V m c main_arg0) (V m c main_v4) (V m c main_arg5) (V m c main_v0) (V m c main_arg7) (V m c main_v1) :=
  (dats m 0 c).arrAt_eq_of_cover 6 _ (fun t _ => flushed_eq m c t) cover

end Cert.KernelIdeal.ArrayValue

end
-- ==== Proof.IndexRange.lean ====
/-
  An index that is valid for an axis of extent 100 000, once normalised, is in bounds.

  Both programs normalise a gathered index the NumPy way — a negative `w` becomes `w + 100000` — and the kernel's
  `take(mode="fill")` then keeps a gathered row only where the normalised index lies in `[0, 99999]`. For a 32-bit
  word with `−100000 ≤ w < 100000` (the precondition's conjunct) the normalised word is in that range: a negative
  `w` is at least `−100000`, so adding `100000` does not wrap and lands in `[0, 99999]`; a non-negative one is kept.
  The bounds test is the `and` of the two comparisons folded over an axis of extent one from `true`; a fold of
  `and` over ones from one is one.
-/
import Idealize.ShloMosaic.Lib.Affine
import Idealize.ShloMosaic.Lib.ReduceAll
import Idealize.ShloMosaic.Lib.ValueIdx
import Idealize.ShloMosaic.PureOps.Reduce

namespace Cert.IndexRange

open Idealize.ShloMosaic Idealize.ShloMosaic.ValueIdx

/-- The normalised index of a word: `w + 100000` when `w` is negative, else `w`. -/
abbrev normalised (w : BitVec 32) : BitVec 32 :=
  Scalar.select (IntOp.cmpi .slt w 0#32) (IntOp.addi w 100000#32) w

/-- A word in `[−100000, 100000)` normalises into `[0, 99999]`: both comparisons of the bounds test answer one. -/
theorem normalised_in_bounds (w : BitVec 32)
    (h : IntOp.andi (IntOp.cmpi .sge w 4294867296#32) (IntOp.cmpi .slt w 100000#32) = 1#1) :
    IntOp.andi (IntOp.cmpi .sge (normalised w) 0#32) (IntOp.cmpi .sle (normalised w) 99999#32) = 1#1 := by
  obtain ⟨h1, h2⟩ := IntOp.andi_eq_one.1 h
  rw [IntOp.cmpi_sge] at h1
  rw [IntOp.cmpi_slt] at h2
  have hK : (4294867296#32 : BitVec 32).toInt = -100000 := by decide
  have hN : (100000#32 : BitVec 32).toInt = 100000 := by decide
  have h0 : (0#32 : BitVec 32).toInt = 0 := by decide
  have h9 : (99999#32 : BitVec 32).toInt = 99999 := by decide
  rw [hK] at h1
  rw [hN] at h2
  rw [IntOp.andi_eq_one, IntOp.cmpi_sge, IntOp.cmpi_sle, h0, h9]
  unfold normalised
  by_cases hneg : IntOp.cmpi .slt w 0#32 = 1#1
  · rw [hneg, select_one]
    rw [IntOp.cmpi_slt, h0] at hneg
    have hsum : (IntOp.addi w 100000#32).toInt = w.toInt + 100000 := by
      show (w + 100000#32).toInt = _
      have hw := BitVec.toInt_eq_toNat_cond w
      have hs := BitVec.toInt_eq_toNat_cond (w + 100000#32)
      have ha : (w + 100000#32).toNat = (w.toNat + 100000) % 2 ^ 32 := by rw [BitVec.toNat_add]; rfl
      have hlt := w.isLt
      split at hw <;> split at hs <;> omega
    omega
  · rw [eq_zero_of_ne_one hneg, select_zero]
    have hnn : ¬ w.toInt < 0 := fun hh => hneg (IntOp.cmpi_slt.2 (by rw [h0]; exact hh))
    omega

/-- A left fold of `and` over ones, from one, is one. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- A reduce by `and`, from one, of an array of ones is one at every result index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ fun n _ => hx n

end Cert.IndexRange
-- ==== Proof.HostPrefix.lean ====
/-
  What the region finds in the arrays the host computes before it.

  Two of the kernel's operands are reshapes: the bias vectors `b₁`, `b₂` as `[1, 64]` rows. A third is the masked
  gathered array: `take(new_node, src, mode="fill")` — the rows of `new_node` at the normalised indices, replaced
  by a zero row wherever the normalised index is out of `[0, 99999]` — and then zeroed on the edges the mask clears.
  Under the precondition every `src` entry is a valid index for an axis of extent 100 000, so no row is replaced:
  `take` is the plain gather, which is what the reference multiplies by.

  The host lines before the region are read stage by stage: each stage's buffer, seen at its own array type, is its
  operation applied to the buffers it reads; composing the stages gives the masked gathered array as one term.
-/
import proofs.«414583_j34093450396366_2_alg».proof.Proof.Gen.KernelIdeal.Frame
import proofs.«414583_j34093450396366_2_alg».proof.Proof.IndexRange
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.KernelIdeal.HostPrefix

open Cert.KernelIdeal Cert.KernelIdeal.Gen Idealize.ShloMosaic Idealize.ShloMosaic.TcCoe Idealize.SL.Sem Idealize.ShloMosaic.StableHlo
open Idealize.ShloMosaic.ValueIdx Cert.IndexRange

variable (m : (ℓ : Loc nD τ sig) → Buf (Elt Ideal) ℓ)

/-! ## The gathered array, piece by piece -/

/-- The indices normalised: a negative entry has the extent added. -/
def normIdx (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The same as a column of start indices. -/
def idxCol (src : IVec S1600000 32) : IVec S1600000x1 32 :=
  broadcastInDim S1600000x1 ![0] bcast_S1600000_S1600000x1_0 (normIdx src)

/-- The two comparisons of the bounds test, per edge, before they are folded. -/
def boundsBits (col : IVec S1600000x1 32) : IVec S1600000x1 1 :=
  andi (cmpi .sge col (broadcastInDim S1600000x1 ![] bcast_S_S1600000x1 (constantI S_ 32 0#32)))
    (cmpi .sle col (broadcastInDim S1600000x1 ![0, 1] bcast_S1x1_S1600000x1_0_1
      (broadcastInDim S1x1 ![1] bcast_S1_S1x1_1 (constantI S1 32 99999#32))))

/-- Per edge: is the normalised index in `[0, 99999]`? -/
def inBounds (src : IVec S1600000 32) : IVec S1600000 1 :=
  Host.reduce IntOp.andi (boundsBits (idxCol src)) (constantI S_ 1 1#1) reducesTo_S1600000x1_S1600000_d1 h_S_

/-- The rows of the node features at the start indices. -/
def gathered (x1 : FVec Ideal S100000x64 .f32) (src : IVec S1600000 32) : FVec Ideal S1600000x64 .f32 :=
  Host.gather gather_S100000x64_S1600000x1_S1600000x64_1_0_n_n_0_1_164 x1 (idxCol src)

/-- The float zero spread over the gathered array's shape. -/
def zeros : FVec Ideal S1600000x64 .f32 :=
  broadcastInDim S1600000x64 ![] bcast_S_S1600000x64 (constant S_ .f32 0x00000000#32)

/-- `take(…, mode="fill", fill_value=0)`: the gathered rows, a zero row where the index is out of bounds. -/
def taken (x1 : FVec Ideal S100000x64 .f32) (src : IVec S1600000 32) : FVec Ideal S1600000x64 .f32 :=
  select (broadcastInDim S1600000x64 ![0] bcast_S1600000_S1600000x64_0 (inBounds src)) (gathered x1 src) zeros

/-- The edge mask spread over the 64 feature columns. -/
def maskCols (mask : IVec S1600000 1) : IVec S1600000x64 1 :=
  broadcastInDim S1600000x64 ![0, 1] bcast_S1600000x1_S1600000x64_0_1 (broadcastInDim S1600000x1 ![0] bcast_S1600000_S1600000x1_0 mask)

/-- The fill of the outer mask. -/
def maskFill : FVec Ideal S1600000x64 .f32 :=
  broadcastInDim S1600000x64 ![] bcast_S_S1600000x64 (id (constant S_ .f32 0x00000000#32))

/-- The masked gathered array the kernel multiplies by the edge filter. -/
def takenMasked (x1 : FVec Ideal S100000x64 .f32) (src : IVec S1600000 32) (mask : IVec S1600000 1) : FVec Ideal S1600000x64 .f32 :=
  select (maskCols mask) (taken x1 src) maskFill

/-! ## The stages of the host lines before the region -/

/-- A buffer's contents as the region finds them, at the buffer's array type. -/
abbrev found (c : Dev nD) {T : BufTy} (x : TRef sig T) : T.Contents (Elt Ideal) := x.ofBuf (V m c x.ref)

/-- A transport along an equation and back is the identity. -/
theorem cast_cast_id {α β : Type} (h1 : α = β) (h2 : β = α) (v : α) : cast h2 (cast h1 v) = v := by
  subst h1; rfl

set_option maxHeartbeats 4000000 in
/-- The node features are not written before the region. -/
theorem found_arg1 (c : Dev nD) : (found m c (T := ⟨S100000x64, .f32⟩) (TRef.of main_arg1)) = m ((c : Thread nD τ).loc main_arg1) := by
  dsimp only [found, Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 4000000 in
/-- The column of start indices. -/
theorem found_idxCol (c : Dev nD) : (found m c (T := ⟨S1600000x1, .i32⟩) (TRef.of main_call0_v5)) = idxCol (m ((c : Thread nD τ).loc main_arg2)) := by
  dsimp only [found, Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 4000000 in
/-- The two comparisons of the bounds test. -/
theorem found_boundsBits (c : Dev nD) : (found m c (T := ⟨S1600000x1, .i1⟩) (TRef.of main_call0_v11)) = boundsBits ((found m c (T := ⟨S1600000x1, .i32⟩) (TRef.of main_call0_v5))) := by
  dsimp only [found, Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 4000000 in
/-- Their fold over the unit axis. -/
theorem found_inBounds (c : Dev nD) : (found m c (T := ⟨S1600000, .i1⟩) (TRef.of main_call0_v12))
    = Host.reduce IntOp.andi ((found m c (T := ⟨S1600000x1, .i1⟩) (TRef.of main_call0_v11))) (constantI S_ 1 1#1) reducesTo_S1600000x1_S1600000_d1 h_S_ := by
  dsimp only [found, Gen.V, Gen.V0]
  simp only [Gen.hostOps0, Gen.hostOps0_1, Gen.hostOps0_2, Gen.hostOps0_3, List.flatten_cons, List.flatten_nil, List.append_nil, List.cons_append, List.nil_append]
  after_results_simp
  refine (cast_cast_id _ _ _).trans ?_
  exact congrArg (fun q => Host.reduce IntOp.andi _ q reducesTo_S1600000x1_S1600000_d1 h_S_) (cast_cast_id _ _ _)

set_option maxHeartbeats 4000000 in
/-- The gather. -/
theorem found_gathered (c : Dev nD) : (found m c (T := ⟨S1600000x64, .f32⟩) (TRef.of main_call0_v13))
    = Host.gather gather_S100000x64_S1600000x1_S1600000x64_1_0_n_n_0_1_164 ((found m c (T := ⟨S100000x64, .f32⟩) (TRef.of main_arg1))) ((found m c (T := ⟨S1600000x1, .i32⟩) (TRef.of main_call0_v5))) := by
  dsimp only [found, Gen.V, Gen.V0]
  simp only [Gen.hostOps0, Gen.hostOps0_1, Gen.hostOps0_2, Gen.hostOps0_3, List.flatten_cons, List.flatten_nil, List.append_nil, List.cons_append, List.nil_append]
  after_results_simp
  exact cast_cast_id _ _ _

set_option maxHeartbeats 4000000 in
/-- The bounds flags spread over the feature columns. -/
theorem found_boundsCols (c : Dev nD) : (found m c (T := ⟨S1600000x64, .i1⟩) (TRef.of main_call0_v14))
    = broadcastInDim S1600000x64 ![0] bcast_S1600000_S1600000x64_0 ((found m c (T := ⟨S1600000, .i1⟩) (TRef.of main_call0_v12))) := by
  dsimp only [found, Gen.V, Gen.V0]
  simp only [Gen.hostOps0, Gen.hostOps0_1, Gen.hostOps0_2, Gen.hostOps0_3, List.flatten_cons, List.flatten_nil, List.append_nil, List.cons_append, List.nil_append]
  after_results_simp
  exact cast_cast_id _ _ _

set_option maxHeartbeats 4000000 in
/-- The zero fill of `take`. -/
theorem found_zeros (c : Dev nD) : (found m c (T := ⟨S1600000x64, .f32⟩) (TRef.of main_call0_v15)) = zeros := by
  dsimp only [found, Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 4000000 in
/-- `take`'s select. -/
theorem found_taken (c : Dev nD) : (found m c (T := ⟨S1600000x64, .f32⟩) (TRef.of main_v2))
    = select ((found m c (T := ⟨S1600000x64, .i1⟩) (TRef.of main_call0_v14)) : IVec S1600000x64 1) ((found m c (T := ⟨S1600000x64, .f32⟩) (TRef.of main_call0_v13)) : FVec Ideal S1600000x64 .f32)
        ((found m c (T := ⟨S1600000x64, .f32⟩) (TRef.of main_call0_v15)) : FVec Ideal S1600000x64 .f32) := by
  dsimp only [found, Gen.V, Gen.V0]
  simp only [Gen.hostOps0, Gen.hostOps0_1, Gen.hostOps0_2, Gen.hostOps0_3, List.flatten_cons, List.flatten_nil, List.append_nil, List.cons_append, List.nil_append]
  after_results_simp
  exact cast_cast_id _ _ _

set_option maxHeartbeats 4000000 in
/-- The mask over the feature columns. -/
theorem found_maskCols (c : Dev nD) : (found m c (T := ⟨S1600000x64, .i1⟩) (TRef.of main_call1_v1)) = maskCols (m ((c : Thread nD τ).loc main_arg4)) := by
  dsimp only [found, Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 4000000 in
/-- The fill of the outer mask. -/
theorem found_maskFill (c : Dev nD) : (found m c (T := ⟨S1600000x64, .f32⟩) (TRef.of main_call1_v2)) = maskFill := by
  dsimp only [found, Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 4000000 in
/-- The outer mask's select. -/
theorem found_takenMasked (c : Dev nD) : (found m c (T := ⟨S1600000x64, .f32⟩) (TRef.of main_v4))
    = select ((found m c (T := ⟨S1600000x64, .i1⟩) (TRef.of main_call1_v1)) : IVec S1600000x64 1) ((found m c (T := ⟨S1600000x64, .f32⟩) (TRef.of main_v2)) : FVec Ideal S1600000x64 .f32)
        ((found m c (T := ⟨S1600000x64, .f32⟩) (TRef.of main_call1_v2)) : FVec Ideal S1600000x64 .f32) := by
  dsimp only [found, Gen.V, Gen.V0]
  simp only [Gen.hostOps0, Gen.hostOps0_1, Gen.hostOps0_2, Gen.hostOps0_3, List.flatten_cons, List.flatten_nil, List.append_nil, List.cons_append, List.nil_append]
  after_results_simp
  exact cast_cast_id _ _ _

/-! ## What the region finds -/

/-- Window 1's array is the masked gathered array of the arguments. -/
theorem V_main_v4 (c : Dev nD) : (V m c main_v4 : S1600000x64.Idx → EReal)
    = takenMasked (m ((c : Thread nD τ).loc main_arg1)) (m ((c : Thread nD τ).loc main_arg2)) (m ((c : Thread nD τ).loc main_arg4)) := by
  show (found m c (T := ⟨S1600000x64, .f32⟩) (TRef.of main_v4)) = _
  rw [found_takenMasked, found_maskCols, found_maskFill, found_taken, found_boundsCols, found_zeros, found_gathered, found_inBounds,
    found_boundsBits, found_idxCol, found_arg1]
  rfl

set_option maxHeartbeats 4000000 in
/-- Window 3's array is `b₁` as a row … -/
theorem V_main_v0 (c : Dev nD) : (V m c main_v0 : S1x64.Idx → EReal) = shapeCast S1x64 (m ((c : Thread nD τ).loc main_arg6)) shapeCasts_S64_S1x64 := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

set_option maxHeartbeats 4000000 in
/-- … and window 5's is `b₂` as a row. -/
theorem V_main_v1 (c : Dev nD) : (V m c main_v1 : S1x64.Idx → EReal) = shapeCast S1x64 (m ((c : Thread nD τ).loc main_arg8)) shapeCasts_S64_S1x64 := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

/-- A bias row's entry `k` is the bias vector's. -/
theorem row_at (b : S64.Idx → EReal) (k : Fin 64) : shapeCast S1x64 b shapeCasts_S64_S1x64 (ix2 (0 : Fin 1) k) = b (ix1 k) :=
  shapeCast_a_1a_apply b shapeCasts_S64_S1x64 0 k

/-! ## Valid indices are never filled -/

/-- Every entry of `src` is a valid index for an axis of extent 100 000: `−100000 ≤ src[e] < 100000`. -/
def SrcValid (src : IVec S1600000 32) : Prop :=
  ∀ e : S1600000.Idx, IntOp.andi (IntOp.cmpi .sge (src e) 4294867296#32) (IntOp.cmpi .slt (src e) 100000#32) = 1#1

/-- The column of start indices at row `i` is the normalised word of `src` there. -/
theorem idxCol_at (src : IVec S1600000 32) (i : S1600000x1.Idx) : idxCol src i = normalised (src (ix1 (i 0))) := by
  unfold idxCol
  rw [broadcastInDim_apply _ bcast_S1600000_S1600000x1_0 (normIdx src) i (ix1 (i 0)) (fun a => match a with
    | ⟨0, _⟩ => by show (i 0).val = if (1600000 : Nat) = 1 then 0 else (i 0).val; rw [if_neg (by decide)])]
  rfl

/-- Under valid indices the bounds test answers one on every edge. -/
theorem inBounds_one (src : IVec S1600000 32) (h : SrcValid src) (e : S1600000.Idx) : inBounds src e = 1#1 := by
  unfold inBounds
  refine reduce_andi_ones _ _ _ _ rfl (fun i => ?_) e
  show IntOp.andi (IntOp.cmpi .sge (idxCol src i) 0#32) (IntOp.cmpi .sle (idxCol src i) 99999#32) = 1#1
  rw [idxCol_at]
  exact normalised_in_bounds _ (h _)

/-- So `take` with zero fill is the plain gather. -/
theorem taken_eq (x1 : FVec Ideal S100000x64 .f32) (src : IVec S1600000 32) (h : SrcValid src) : taken x1 src = gathered x1 src := by
  funext i
  unfold taken
  rw [select_apply, broadcastInDim_apply _ bcast_S1600000_S1600000x64_0 (inBounds src) i (ix1 (i 0)) (fun a => match a with
    | ⟨0, _⟩ => by show (i 0).val = if (1600000 : Nat) = 1 then 0 else (i 0).val; rw [if_neg (by decide)]),
    inBounds_one src h, select_one]

end Cert.KernelIdeal.HostPrefix

end
-- ==== Proof.KernelRun.lean ====
/-
  The idealized kernel's run, read: what its result buffer holds at the end.

  After the region the host scatters the message array into a zero array of node rows, adding each edge's message
  into row `dst[e]`. The message array is `msg` of the arrays the region found (`KernelArray.lean`), and those are
  the arguments themselves, the two bias rows and the masked gathered array (`HostPrefix.lean`). So the result is
  one `scatterAdd` of `msg` of the arguments — and every argument array ends as launched.
-/
import proofs.«414583_j34093450396366_2_alg».proof.Proof.KernelArray
import proofs.«414583_j34093450396366_2_alg».proof.Proof.HostPrefix

set_option maxRecDepth 16384

noncomputable section

namespace Cert.KernelIdeal.RunValue

open Cert.KernelIdeal Cert.KernelIdeal.Gen Idealize.ShloMosaic Idealize.ShloMosaic.TcCoe Idealize.SL.Sem Idealize.ShloMosaic.StableHlo
open Cert.KernelIdeal.ArrayValue Cert.KernelIdeal.HostPrefix

variable (m : (ℓ : Loc nD τ sig) → Buf (Elt Ideal) ℓ) (ρ : Dev nD → PrngReg)

/-- The message array of the arguments: `msg` over the basis array, the masked gathered array, the weights and the bias rows. -/
def messages (c : Dev nD) : S1600000x64.Idx → EReal :=
  msg (m ((c : Thread nD τ).loc main_arg0))
    (takenMasked (m ((c : Thread nD τ).loc main_arg1)) (m ((c : Thread nD τ).loc main_arg2)) (m ((c : Thread nD τ).loc main_arg4)))
    (m ((c : Thread nD τ).loc main_arg5)) (shapeCast S1x64 (m ((c : Thread nD τ).loc main_arg6)) shapeCasts_S64_S1x64)
    (m ((c : Thread nD τ).loc main_arg7)) (shapeCast S1x64 (m ((c : Thread nD τ).loc main_arg8)) shapeCasts_S64_S1x64)

/-- The result: the messages scattered into zero node rows by `dst`, added. -/
def result (c : Dev nD) : S100000x64.Idx → EReal :=
  Host.scatterAdd scatter_S100000x64_S1600000x1_S1600000x64_1_0_0_1 (broadcastInDim S100000x64 ![] bcast_S_S100000x64 (constant (F := Ideal) S_ .f32 0x00000000#32))
    (broadcastInDim S1600000x1 ![0] bcast_S1600000_S1600000x1_0 (m ((c : Thread nD τ).loc main_arg3))) (messages m c)

/-- The message array after the region is `messages`. -/
theorem final_messages (c : Dev nD) : (dats m 0 c).arrAt 6 cfg0.N = messages m c := by
  rw [final m c]
  unfold messages
  rw [V_main_arg0, V_main_arg5, V_main_arg7, HostPrefix.V_main_v4, HostPrefix.V_main_v0, HostPrefix.V_main_v1]

/-- What the lines after the region leave in the result buffer. -/
theorem tail_result (c : Dev nD) :
    (Pipeline.afterTail₀ cfgs (dats m) 0 (V0 m) [hostOps1] c main_v8 : S100000x64.Idx → EReal) = result m c := by
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have e5 : Pipeline.withArrays (cfgs 0).spec c (V0 m c) (fun w => (dats m 0 c).arrAt w (cfgs 0).N) (Proc.devRef .tc main_v5)
      = messages m c :=
    (Pipeline.withArrays_arr spec0 launch0.win.arr_inj c _ _ 6).trans (final_messages m c)
  unfold Pipeline.afterTail₀
  show StableHlo.after hostOps1 _ (Proc.devRef .tc main_v8) = _
  after_results
  rw [e3, e5]
  rfl

/-- THE RUN: every weakly fair execution of the idealized kernel ends with the result buffer at `result` and the
    argument arrays as launched. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨((h c).2 main_v8 (Pipeline.mem_restRefs_of main_v8 (by decide) (by decide))).trans (tail_result m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 2).trans (((dats m 0 c).arrAt_in 2 rfl _).trans ((A_eq m c 2).trans (V_main_arg5 m c))),
      (((h c).2 main_arg6 (Pipeline.mem_restRefs_of main_arg6 (by decide) (by decide))).trans (W_main_arg6 m (dats m) c)),
      ((h c).1 4).trans (((dats m 0 c).arrAt_in 4 rfl _).trans ((A_eq m c 4).trans (V_main_arg7 m c))),
      (((h c).2 main_arg8 (Pipeline.mem_restRefs_of main_arg8 (by decide) (by decide))).trans (W_main_arg8 m (dats m) c))⟩)
    (run_main m ρ)

end Cert.KernelIdeal.RunValue

end
-- ==== Proof.RefFilter.lean ====
/-
  What the reference computes for one edge, read at one element.

  The host program's edge filter `h = softplus(rbf · W₁ + b₁) · W₂ + b₂` over all 1 600 000 edges, read at edge `e`
  and output unit `j`, is `filter` of row `e` of `rbf` (`EdgeFilter.lean`): each `dot_general` is the sum over its one
  contracted axis, each bias a vector broadcast along the edges, and the chain between them `softplus` in the
  host's own spelling.
-/
import proofs.«414583_j34093450396366_2_alg».proof.Proof.Gen.ReferenceIdeal.Read
import proofs.«414583_j34093450396366_2_alg».proof.Proof.EdgeFilter
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.EdgeFilter

/-! ## The operand indices of the reference's operations, by coordinates -/

theorem lidx_v0 (e : Fin 1600000) (j : Fin 64) (l : Fin 128) : lidx_main_v0 (ix2 e j) l = ix2 e l :=
  funext fun a => by match a with | ⟨0, _⟩ => rfl | ⟨1, _⟩ => rfl
theorem ridx_v0 (e : Fin 1600000) (j : Fin 64) (l : Fin 128) : ridx_main_v0 (ix2 e j) l = ix2 l j :=
  funext fun a => by match a with | ⟨0, _⟩ => rfl | ⟨1, _⟩ => rfl
theorem idx_v2 (e : Fin 1600000) (j : Fin 64) : idx_main_v2 (ix2 e j) = ix2 (0 : Fin 1) j :=
  funext fun a => by match a with | ⟨0, _⟩ => rfl | ⟨1, _⟩ => rfl
theorem idx_v1 (u : Fin 1) (j : Fin 64) : idx_main_v1 (ix2 u j) = ix1 j :=
  funext fun a => by match a with | ⟨0, _⟩ => rfl
theorem lidx_v24 (e : Fin 1600000) (j : Fin 64) (k : Fin 64) : lidx_main_v24 (ix2 e j) k = ix2 e k :=
  funext fun a => by match a with | ⟨0, _⟩ => rfl | ⟨1, _⟩ => rfl
theorem ridx_v24 (e : Fin 1600000) (j : Fin 64) (k : Fin 64) : ridx_main_v24 (ix2 e j) k = ix2 k j :=
  funext fun a => by match a with | ⟨0, _⟩ => rfl | ⟨1, _⟩ => rfl
theorem idx_v26 (e : Fin 1600000) (j : Fin 64) : idx_main_v26 (ix2 e j) = ix2 (0 : Fin 1) j :=
  funext fun a => by match a with | ⟨0, _⟩ => rfl | ⟨1, _⟩ => rfl
theorem idx_v25 (u : Fin 1) (j : Fin 64) : idx_main_v25 (ix2 u j) = ix1 j :=
  funext fun a => by match a with | ⟨0, _⟩ => rfl

/-! ## The layers -/

/-- The first layer at edge `e`, hidden unit `k`. -/
theorem layer1_at (x0 : (⟨S1600000x128, .f32⟩ : BufTy).Contents (Elt Ideal)) (x5 : (⟨S128x64, .f32⟩ : BufTy).Contents (Elt Ideal))
    (x6 : (⟨S64, .f32⟩ : BufTy).Contents (Elt Ideal)) (e : Fin 1600000) (k : Fin 64) :
    val_main_v3 (F := Ideal) x0 x5 x6 (ix2 e k) = lin1 (fun l => x0 (ix2 e l)) x5 (fun k => x6 (ix1 k)) k := by
  rw [val_main_v3_apply, val_main_v0_apply, val_main_v2_apply, val_main_v1_apply]
  simp only [lidx_v0, ridx_v0, idx_v2, idx_v1]
  rfl

/-- The chain between the two products is `softplus`, element by element. -/
theorem activation_at (x0 : (⟨S1600000x128, .f32⟩ : BufTy).Contents (Elt Ideal)) (x5 : (⟨S128x64, .f32⟩ : BufTy).Contents (Elt Ideal))
    (x6 : (⟨S64, .f32⟩ : BufTy).Contents (Elt Ideal)) (i : S1600000x64.Idx) :
    val_main_v23 (F := Ideal) x0 x5 x6 i = softplus (val_main_v3 (F := Ideal) x0 x5 x6 i) := by
  simp only [val_main_v23_apply, val_main_v22_apply, val_main_v21_apply, val_main_cst_2_apply, val_main_v20_apply,
    val_main_v19_apply, val_main_v18_apply, val_main_v17_apply, val_main_v16_apply, val_main_v15_apply,
    val_main_v14_apply, val_main_v13_apply, val_main_v12_apply, val_main_v11_apply, val_main_v10_apply,
    val_main_v9_apply, val_main_v8_apply, val_main_cst_1_apply, val_main_v7_apply, val_main_v6_apply,
    val_main_cst_0_apply, val_main_v5_apply, val_main_v4_apply, val_main_cst_apply]
  rfl

/-- THE REFERENCE'S FILTER AT `(e, j)`: the edge filter of row `e` of `rbf`, at output unit `j`. -/
theorem filter_at (x0 : (⟨S1600000x128, .f32⟩ : BufTy).Contents (Elt Ideal)) (x5 : (⟨S128x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (e : Fin 1600000) (j : Fin 64) :
    val_main_v27 (F := Ideal) x0 x5 x6 x7 x8 (ix2 e j)
      = filter (fun l => x0 (ix2 e l)) x5 (fun k => x6 (ix1 k)) x7 (fun k => x8 (ix1 k)) j := by
  rw [val_main_v27_apply, val_main_v24_apply, val_main_v26_apply, val_main_v25_apply]
  simp only [lidx_v24, ridx_v24, idx_v26, idx_v25, activation_at, layer1_at]
  rfl

end Cert.ReferenceIdeal.RefValue

end
-- ==== Proof.Bridge.lean ====
/-
  The two programs' messages are one array, hence so are their results.

  Edge `e`, feature `j`. The kernel multiplies the MASKED gathered feature by the edge filter:
      (mask[e] ? new_node[src'[e], j] : 0) · h[e, j],
  the reference masks the PRODUCT:
      mask[e] ? new_node[src'[e], j] · h[e, j] : 0,
  with the same normalised index `src'`, the same gather, and the same filter `h` (`KernelPayload.lean` and
  `RefFilter.lean` read both as `filter` of basis row `e`). Since `0 · h = 0` for every extended real the two agree
  (`select_mul`); the precondition on `src` is what makes the kernel's zero-filling `take` the reference's gather.
  Both programs then scatter-add the messages into zero node rows by the same `dst`.
-/
import proofs.«414583_j34093450396366_2_alg».proof.Proof.KernelRun
import proofs.«414583_j34093450396366_2_alg».proof.Proof.RefFilter

set_option maxRecDepth 16384

noncomputable section

namespace Cert.Bridge

open Cert.KernelIdeal Cert.KernelIdeal.Gen Idealize.ShloMosaic Idealize.ShloMosaic.ValueIdx
open Cert.EdgeFilter Cert.KernelIdeal.ArrayValue Cert.KernelIdeal.HostPrefix

/-- The fill value of the outer mask, read at an index: the float zero. -/
theorem fill_at (i : S1600000x64.Idx) : maskFill i = zeroW := by
  unfold maskFill
  exact broadcastInDim_apply _ bcast_S_S1600000x64 _ i ix0 (fun a => a.elim0)

/-- The kernel's message at `(e, j)`: the masked gathered feature times the filter of basis row `e`. -/
theorem kernel_message_at (x0 : S1600000x128.Idx → EReal) (x1 : S100000x64.Idx → EReal) (x2 : IVec S1600000 32) (x4 : IVec S1600000 1)
    (x5 : S128x64.Idx → EReal) (x6 : S64.Idx → EReal) (x7 : S64x64.Idx → EReal) (x8 : S64.Idx → EReal)
    (h : SrcValid x2) (e : Fin 1600000) (j : Fin 64) :
    msg x0 (takenMasked x1 x2 x4) x5 (shapeCast S1x64 x6 shapeCasts_S64_S1x64) x7 (shapeCast S1x64 x8 shapeCasts_S64_S1x64) (ix2 e j)
      = Scalar.select (maskCols x4 (ix2 e j)) (gathered x1 x2 (ix2 e j)) zeroW
          * filter (fun l => x0 (ix2 e l)) x5 (fun k => x6 (ix1 k)) x7 (fun k => x8 (ix1 k)) j := by
  unfold msg
  simp only [row_at]
  unfold takenMasked
  rw [select_apply, taken_eq x1 x2 h, fill_at]

/-- The reference's message at `(e, j)`: the mask applied to the product. -/
theorem reference_message_at (x0 : S1600000x128.Idx → EReal) (x1 : S100000x64.Idx → EReal) (x2 : IVec S1600000 32) (x4 : IVec S1600000 1)
    (x5 : S128x64.Idx → EReal) (x6 : S64.Idx → EReal) (x7 : S64x64.Idx → EReal) (x8 : S64.Idx → EReal) (e : Fin 1600000) (j : Fin 64) :
    Cert.ReferenceIdeal.Read.val_main_v37 (F := Ideal) x0 x1 x2 x4 x5 x6 x7 x8 (ix2 e j)
      = Scalar.select (Cert.ReferenceIdeal.Read.val_main_call1_v1 (F := Ideal) x4 (ix2 e j))
          (Cert.ReferenceIdeal.Read.val_main_v35 (F := Ideal) x1 x2 (ix2 e j) * filter (fun l => x0 (ix2 e l)) x5 (fun k => x6 (ix1 k)) x7 (fun k => x8 (ix1 k)) j) zeroW := by
  rw [Cert.ReferenceIdeal.Read.val_main_v37_apply, Cert.ReferenceIdeal.Read.val_main_v36_apply, Cert.ReferenceIdeal.RefValue.filter_at, Cert.ReferenceIdeal.Read.val_main_call1_v2_apply,
    Cert.ReferenceIdeal.Read.val_main_call1_v0_apply, Cert.ReferenceIdeal.Read.val_main_cst_4_apply]
  rfl

/-- The two programs gather the same rows and spread the same mask. -/
theorem gathered_eq (x1 : S100000x64.Idx → EReal) (x2 : IVec S1600000 32) : gathered x1 x2 = Cert.ReferenceIdeal.Read.val_main_v35 (F := Ideal) x1 x2 := rfl
theorem maskCols_eq (x4 : IVec S1600000 1) : maskCols x4 = Cert.ReferenceIdeal.Read.val_main_call1_v1 (F := Ideal) x4 := rfl

/-- THE MESSAGES AGREE, under valid indices. -/
theorem messages_eq (x0 : S1600000x128.Idx → EReal) (x1 : S100000x64.Idx → EReal) (x2 : IVec S1600000 32) (x4 : IVec S1600000 1)
    (x5 : S128x64.Idx → EReal) (x6 : S64.Idx → EReal) (x7 : S64x64.Idx → EReal) (x8 : S64.Idx → EReal) (h : SrcValid x2) :
    msg x0 (takenMasked x1 x2 x4) x5 (shapeCast S1x64 x6 shapeCasts_S64_S1x64) x7 (shapeCast S1x64 x8 shapeCasts_S64_S1x64)
      = Cert.ReferenceIdeal.Read.val_main_v37 (F := Ideal) x0 x1 x2 x4 x5 x6 x7 x8 := by
  funext i
  obtain ⟨e, j, rfl⟩ : ∃ (e : Fin 1600000) (j : Fin 64), i = ix2 e j := ⟨i 0, i 1, eq_ix2 i⟩
  rw [kernel_message_at x0 x1 x2 x4 x5 x6 x7 x8 h, reference_message_at, select_mul, gathered_eq, maskCols_eq]

/-- THE RESULTS AGREE: the same scatter-add of the same messages by the same destinations into the same zeros. -/
theorem results_eq (x0 : S1600000x128.Idx → EReal) (x1 : S100000x64.Idx → EReal) (x2 x3 : IVec S1600000 32) (x4 : IVec S1600000 1)
    (x5 : S128x64.Idx → EReal) (x6 : S64.Idx → EReal) (x7 : S64x64.Idx → EReal) (x8 : S64.Idx → EReal) (h : SrcValid x2) :
    Host.scatterAdd scatter_S100000x64_S1600000x1_S1600000x64_1_0_0_1 (broadcastInDim S100000x64 ![] bcast_S_S100000x64 (constant (F := Ideal) S_ .f32 0x00000000#32))
        (broadcastInDim S1600000x1 ![0] bcast_S1600000_S1600000x1_0 x3)
        (msg x0 (takenMasked x1 x2 x4) x5 (shapeCast S1x64 x6 shapeCasts_S64_S1x64) x7 (shapeCast S1x64 x8 shapeCasts_S64_S1x64))
      = Cert.ReferenceIdeal.Read.val_main_v40 (F := Ideal) x0 x1 x2 x3 x4 x5 x6 x7 x8 := by
  rw [messages_eq x0 x1 x2 x4 x5 x6 x7 x8 h]
  unfold Cert.ReferenceIdeal.Read.val_main_v40
  rfl

end Cert.Bridge

end
-- ==== Proof.lean ====
/-
  Message passing over a graph of 1 600 000 edges and 100 000 nodes: for every edge `e` an edge filter
      h[e] = softplus(rbf[e] · W₁ + b₁) · W₂ + b₂   ∈ ℝ⁶⁴        (softplus with β = 1/2, threshold 14)
  multiplies the source node's features, the product is kept on the edges the mask selects, and the messages are
  summed into their destination nodes:
      out[n] = Σ_{e : dst[e] = n}  (mask[e] ? new_node[src[e]] · h[e] : 0).

  The kernel computes `h` tile by tile in one pallas_call (two matrix products with bf16 operands, softplus between
  them) and multiplies it there by the gathered features, which the host has gathered and masked BEFORE the call;
  the reference multiplies first and masks the product. Over the extended reals the two agree because
  `0 · h = 0` for every `h`, the format changes are the identity and each matrix product is the same sum.

  The gathers differ outside the index range: the kernel's `take(mode="fill")` yields a zero row for an index that
  is out of range after normalisation, the reference's `new_node[src]` clamps. The precondition therefore asks,
  beside finiteness of the float inputs, that every `src` entry be a valid index of an axis of extent 100 000
  (`−100000 ≤ src < 100000`); then no row is filled and both programs gather the same rows. `dst` is unconstrained:
  both programs scatter-add by the same operation.

  Modules: `EdgeFilter` (the filter of one edge; the two spellings of softplus), `KernelPayload` (the kernel body at
  one element), `KernelArray` (the message array after the region), `IndexRange` and `SrcRange` (valid indices; the
  precondition read back), `HostPrefix` (what the region finds), `KernelRun` (the kernel's result), `RefFilter` (the
  reference's filter at one element), `Bridge` (the two messages, hence the two results, agree).
-/
import proofs.«414583_j34093450396366_2_alg».proof.Defs
import proofs.«414583_j34093450396366_2_alg».proof.Proof.Gen.Kernel
import proofs.«414583_j34093450396366_2_alg».proof.Proof.Gen.Kernel.Skeleton
import proofs.«414583_j34093450396366_2_alg».proof.Proof.Gen.Kernel.Launch
import proofs.«414583_j34093450396366_2_alg».proof.Proof.Gen.Kernel.Points
import proofs.«414583_j34093450396366_2_alg».proof.Proof.Gen.Kernel.Frame
import proofs.«414583_j34093450396366_2_alg».proof.Proof.Gen.KernelIdeal
import proofs.«414583_j34093450396366_2_alg».proof.Proof.Gen.KernelIdeal.Skeleton
import proofs.«414583_j34093450396366_2_alg».proof.Proof.Gen.KernelIdeal.Launch
import proofs.«414583_j34093450396366_2_alg».proof.Proof.Gen.KernelIdeal.Points
import proofs.«414583_j34093450396366_2_alg».proof.Proof.Gen.KernelIdeal.Frame
import proofs.«414583_j34093450396366_2_alg».proof.Proof.Gen.ReferenceIdeal
import proofs.«414583_j34093450396366_2_alg».proof.Proof.Gen.ReferenceIdeal.Run
import proofs.«414583_j34093450396366_2_alg».proof.Proof.Gen.ReferenceIdeal.Read
import proofs.«414583_j34093450396366_2_alg».proof.Proof.Gen.Pre_finite_inputs
import proofs.«414583_j34093450396366_2_alg».proof.Proof.SrcRange
import proofs.«414583_j34093450396366_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition every entry of `src` is a valid index for the node axis. -/
theorem src_valid (m : (ℓ : Loc Cert.KernelIdeal.nD Cert.KernelIdeal.τ Cert.KernelIdeal.sig) → Buf (Elt Ideal) ℓ)
    (h : Cert.Pre_KernelIdeal m) (c : Dev Cert.KernelIdeal.nD) :
    Cert.KernelIdeal.HostPrefix.SrcValid (m ((c : Thread Cert.KernelIdeal.nD Cert.KernelIdeal.τ).loc Cert.KernelIdeal.main_arg2)) :=
  fun e => Cert.SrcRange.src_range _ _ _ _ _ _ _ _ _ (h c) e

/-- From memories agreeing on the arguments both idealized programs end with the same node array: the kernel's
    scatter-add of its messages and the reference's are one term once the messages agree. -/
theorem algebraic : Cert.algebraic_KernelIdeal_ReferenceIdeal := by
  intro m ρ m' ρ' hpre hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v40_eq, a0, a1, a2, a3, a4, a5, a6, a7, a8]
  exact (Cert.Bridge.results_eq _ _ _ _ _ _ _ _ _ (src_valid m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
